-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  IdealRules.named_const.Statement Cert.KernelIdeal.κ "inv_n" .f32 0x39480898#32 ((1 / 5242 : ℝ) : EReal)
  ∧ IdealRules.named_const.Statement Cert.KernelIdeal.κ "inv_n" .f32 0x39480898#32 ((1 / 5242 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S7x256 : Shape := ⟨2, ![7, 256]⟩
abbrev S72x256 : Shape := ⟨2, ![72, 256]⟩
abbrev S260x256 : Shape := ⟨2, ![260, 256]⟩
abbrev S5242x256 : Shape := ⟨2, ![5242, 256]⟩
abbrev S1x5242 : Shape := ⟨2, ![1, 5242]⟩
abbrev S5242 : Shape := ⟨1, ![5242]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S7x256 : S_.BroadcastsInDim S7x256 (![] : Fin 0 → Fin S7x256.rank)
  reducesTo_S7x256_S_d0_1 : S7x256.ReducesTo [0, 1] S_
  bcast_S_S72x256 : S_.BroadcastsInDim S72x256 (![] : Fin 0 → Fin S72x256.rank)
  reducesTo_S72x256_S_d0_1 : S72x256.ReducesTo [0, 1] S_
  bcast_S_S260x256 : S_.BroadcastsInDim S260x256 (![] : Fin 0 → Fin S260x256.rank)
  reducesTo_S260x256_S_d0_1 : S260x256.ReducesTo [0, 1] S_
  bcast_S_S5242x256 : S_.BroadcastsInDim S5242x256 (![] : Fin 0 → Fin S5242x256.rank)
  reducesTo_S5242x256_S_d0_1 : S5242x256.ReducesTo [0, 1] S_
  bcast_S_S1x5242 : S_.BroadcastsInDim S1x5242 (![] : Fin 0 → Fin S1x5242.rank)
  reducesTo_S1x5242_S_d0_1 : S1x5242.ReducesTo [0, 1] S_
  bcast_S_S5242 : S_.BroadcastsInDim S5242 (![] : Fin 0 → Fin S5242.rank)
  reducesTo_S5242_S_d0 : S5242.ReducesTo [0] S_

variable [Facts]

def fn_part2 {F : FTy → Type} [FloatOps F] (main_arg7 : FVec F S5242 .f32) (main_v33 : IVec S_ 1) : IVec S_ 1 :=
  let main_v34 : FVec F S5242 .f32 := Host.absf main_arg7
  let main_cst_12 : FVec F S_ .f32 := constant S_ .f32 0x7F800000#32
  let main_v35 : FVec F S5242 .f32 := broadcastInDim S5242 ![] bcast_S_S5242 main_cst_12
  let main_v36 : IVec S5242 1 := cmpf .olt main_v34 main_v35
  let main_c_13 : IVec S_ 1 := constantI S_ 1 1#1
  let main_v37 : IVec S_ 1 := (fun x v => Host.reduce IntOp.andi x v reducesTo_S5242_S_d0 h_S_) main_v36 main_c_13
  let main_v38 : IVec S_ 1 := andi main_v33 main_v37
  main_v38

def fn_part1 {F : FTy → Type} [FloatOps F] (main_arg4 : FVec F S5242x256 .f32) (main_arg5 : FVec F S1x5242 .f32) (main_arg6 : FVec F S5242 .f32) (main_arg7 : FVec F S5242 .f32) (main_v13 : IVec S_ 1) (main_v16 : IVec S260x256 1) : IVec S_ 1 :=
  let main_c_5 : IVec S_ 1 := constantI S_ 1 1#1
  let main_v17 : IVec S_ 1 := (fun x v => Host.reduce IntOp.andi x v reducesTo_S260x256_S_d0_1 h_S_) main_v16 main_c_5
  let main_v18 : IVec S_ 1 := andi main_v13 main_v17
  let main_v19 : FVec F S5242x256 .f32 := Host.absf main_arg4
  let main_cst_6 : FVec F S_ .f32 := constant S_ .f32 0x7F800000#32
  let main_v20 : FVec F S5242x256 .f32 := broadcastInDim S5242x256 ![] bcast_S_S5242x256 main_cst_6
  let main_v21 : IVec S5242x256 1 := cmpf .olt main_v19 main_v20
  let main_c_7 : IVec S_ 1 := constantI S_ 1 1#1
  let main_v22 : IVec S_ 1 := (fun x v => Host.reduce IntOp.andi x v reducesTo_S5242x256_S_d0_1 h_S_) main_v21 main_c_7
  let main_v23 : IVec S_ 1 := andi main_v18 main_v22
  let main_v24 : FVec F S1x5242 .f32 := Host.absf main_arg5
  let main_cst_8 : FVec F S_ .f32 := constant S_ .f32 0x7F800000#32
  let main_v25 : FVec F S1x5242 .f32 := broadcastInDim S1x5242 ![] bcast_S_S1x5242 main_cst_8
  let main_v26 : IVec S1x5242 1 := cmpf .olt main_v24 main_v25
  let main_c_9 : IVec S_ 1 := constantI S_ 1 1#1
  let main_v27 : IVec S_ 1 := (fun x v => Host.reduce IntOp.andi x v reducesTo_S1x5242_S_d0_1 h_S_) main_v26 main_c_9
  let main_v28 : IVec S_ 1 := andi main_v23 main_v27
  let main_v29 : FVec F S5242 .f32 := Host.absf main_arg6
  let main_cst_10 : FVec F S_ .f32 := constant S_ .f32 0x7F800000#32
  let main_v30 : FVec F S5242 .f32 := broadcastInDim S5242 ![] bcast_S_S5242 main_cst_10
  let main_v31 : IVec S5242 1 := cmpf .olt main_v29 main_v30
  let main_c_11 : IVec S_ 1 := constantI S_ 1 1#1
  let main_v32 : IVec S_ 1 := (fun x v => Host.reduce IntOp.andi x v reducesTo_S5242_S_d0 h_S_) main_v31 main_c_11
  let main_v33 : IVec S_ 1 := andi main_v28 main_v32
  fn_part2 (F := F) main_arg7 main_v33

def fn {F : FTy → Type} [FloatOps F] (main_arg0 : FVec F S8192x1024 .f32) (main_arg1 : FVec F S7x256 .f32) (main_arg2 : FVec F S72x256 .f32) (main_arg3 : FVec F S260x256 .f32) (main_arg4 : FVec F S5242x256 .f32) (main_arg5 : FVec F S1x5242 .f32) (main_arg6 : FVec F S5242 .f32) (main_arg7 : FVec F S5242 .f32) (main_arg8 : IVec S5242 32) (main_arg9 : IVec S5242 32) (main_arg10 : IVec S5242 32) (main_arg11 : IVec S5242 32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S7x256 .f32 := Host.absf main_arg1
  let main_cst_0 : FVec F S_ .f32 := constant S_ .f32 0x7F800000#32
  let main_v5 : FVec F S7x256 .f32 := broadcastInDim S7x256 ![] bcast_S_S7x256 main_cst_0
  let main_v6 : IVec S7x256 1 := cmpf .olt main_v4 main_v5
  let main_c_1 : IVec S_ 1 := constantI S_ 1 1#1
  let main_v7 : IVec S_ 1 := (fun x v => Host.reduce IntOp.andi x v reducesTo_S7x256_S_d0_1 h_S_) main_v6 main_c_1
  let main_v8 : IVec S_ 1 := andi main_v3 main_v7
  let main_v9 : FVec F S72x256 .f32 := Host.absf main_arg2
  let main_cst_2 : FVec F S_ .f32 := constant S_ .f32 0x7F800000#32
  let main_v10 : FVec F S72x256 .f32 := broadcastInDim S72x256 ![] bcast_S_S72x256 main_cst_2
  let main_v11 : IVec S72x256 1 := cmpf .olt main_v9 main_v10
  let main_c_3 : IVec S_ 1 := constantI S_ 1 1#1
  let main_v12 : IVec S_ 1 := (fun x v => Host.reduce IntOp.andi x v reducesTo_S72x256_S_d0_1 h_S_) main_v11 main_c_3
  let main_v13 : IVec S_ 1 := andi main_v8 main_v12
  let main_v14 : FVec F S260x256 .f32 := Host.absf main_arg3
  let main_cst_4 : FVec F S_ .f32 := constant S_ .f32 0x7F800000#32
  let main_v15 : FVec F S260x256 .f32 := broadcastInDim S260x256 ![] bcast_S_S260x256 main_cst_4
  let main_v16 : IVec S260x256 1 := cmpf .olt main_v14 main_v15
  fn_part1 (F := F) main_arg4 main_arg5 main_arg6 main_arg7 main_v13 main_v16
-- ==== Kernel.lean ====
abbrev S8192x1024 : Shape := ⟨2, ![8192, 1024]⟩
abbrev S7x256 : Shape := ⟨2, ![7, 256]⟩
abbrev S72x256 : Shape := ⟨2, ![72, 256]⟩
abbrev S260x256 : Shape := ⟨2, ![260, 256]⟩
abbrev S5242x256 : Shape := ⟨2, ![5242, 256]⟩
abbrev S1x5242 : Shape := ⟨2, ![1, 5242]⟩
abbrev S5242 : Shape := ⟨1, ![5242]⟩
abbrev S_ : Shape := ⟨0, ![]⟩
abbrev S5242x1 : Shape := ⟨2, ![5242, 1]⟩
abbrev S5242x1024 : Shape := ⟨2, ![5242, 1024]⟩
abbrev S1024x5242 : Shape := ⟨2, ![1024, 5242]⟩
abbrev S8192x5242 : Shape := ⟨2, ![8192, 5242]⟩
abbrev S256x1024 : Shape := ⟨2, ![256, 1024]⟩
abbrev S256x5242 : Shape := ⟨2, ![256, 5242]⟩
abbrev S256 : Shape := ⟨1, ![256]⟩
abbrev S256x1 : Shape := ⟨2, ![256, 1]⟩

abbrev nBuf : Space → Nat
  | .hbm => 57
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S7x256, .f32⟩
  | .hbm, ⟨2, _⟩ => ⟨S72x256, .f32⟩
  | .hbm, ⟨3, _⟩ => ⟨S260x256, .f32⟩
  | .hbm, ⟨4, _⟩ => ⟨S5242x256, .f32⟩
  | .hbm, ⟨5, _⟩ => ⟨S1x5242, .f32⟩
  | .hbm, ⟨6, _⟩ => ⟨S5242, .f32⟩
  | .hbm, ⟨7, _⟩ => ⟨S5242, .f32⟩
  | .hbm, ⟨8, _⟩ => ⟨S5242, .i32⟩
  | .hbm, ⟨9, _⟩ => ⟨S5242, .i32⟩
  | .hbm, ⟨10, _⟩ => ⟨S5242, .i32⟩
  | .hbm, ⟨11, _⟩ => ⟨S5242, .i32⟩
  | .hbm, ⟨12, _⟩ => ⟨S7x256, .bf16⟩
  | .hbm, ⟨13, _⟩ => ⟨S72x256, .bf16⟩
  | .hbm, ⟨14, _⟩ => ⟨S260x256, .bf16⟩
  | .hbm, ⟨15, _⟩ => ⟨S5242x256, .bf16⟩
  | .hbm, ⟨16, _⟩ => ⟨S_, .i32⟩
  | .hbm, ⟨17, _⟩ => ⟨S5242, .i32⟩
  | .hbm, ⟨18, _⟩ => ⟨S5242, .i1⟩
  | .hbm, ⟨19, _⟩ => ⟨S_, .i32⟩
  | .hbm, ⟨20, _⟩ => ⟨S5242, .i32⟩
  | .hbm, ⟨21, _⟩ => ⟨S5242, .i32⟩
  | .hbm, ⟨22, _⟩ => ⟨S5242, .i32⟩
  | .hbm, ⟨23, _⟩ => ⟨S5242x1, .i32⟩
  | .hbm, ⟨24, _⟩ => ⟨S5242x256, .bf16⟩
  | .hbm, ⟨25, _⟩ => ⟨S_, .i32⟩
  | .hbm, ⟨26, _⟩ => ⟨S5242, .i32⟩
  | .hbm, ⟨27, _⟩ => ⟨S5242, .i1⟩
  | .hbm, ⟨28, _⟩ => ⟨S_, .i32⟩
  | .hbm, ⟨29, _⟩ => ⟨S5242, .i32⟩
  | .hbm, ⟨30, _⟩ => ⟨S5242, .i32⟩
  | .hbm, ⟨31, _⟩ => ⟨S5242, .i32⟩
  | .hbm, ⟨32, _⟩ => ⟨S5242x1, .i32⟩
  | .hbm, ⟨33, _⟩ => ⟨S5242x256, .bf16⟩
  | .hbm, ⟨34, _⟩ => ⟨S_, .i32⟩
  | .hbm, ⟨35, _⟩ => ⟨S5242, .i32⟩
  | .hbm, ⟨36, _⟩ => ⟨S5242, .i1⟩
  | .hbm, ⟨37, _⟩ => ⟨S_, .i32⟩
  | .hbm, ⟨38, _⟩ => ⟨S5242, .i32⟩
  | .hbm, ⟨39, _⟩ => ⟨S5242, .i32⟩
  | .hbm, ⟨40, _⟩ => ⟨S5242, .i32⟩
  | .hbm, ⟨41, _⟩ => ⟨S5242x1, .i32⟩
  | .hbm, ⟨42, _⟩ => ⟨S5242x256, .bf16⟩
  | .hbm, ⟨43, _⟩ => ⟨S_, .i32⟩
  | .hbm, ⟨44, _⟩ => ⟨S5242, .i32⟩
  | .hbm, ⟨45, _⟩ => ⟨S5242, .i1⟩
  | .hbm, ⟨46, _⟩ => ⟨S_, .i32⟩
  | .hbm, ⟨47, _⟩ => ⟨S5242, .i32⟩
  | .hbm, ⟨48, _⟩ => ⟨S5242, .i32⟩
  | .hbm, ⟨49, _⟩ => ⟨S5242, .i32⟩
  | .hbm, ⟨50, _⟩ => ⟨S5242x1, .i32⟩
  | .hbm, ⟨51, _⟩ => ⟨S5242x256, .bf16⟩
  | .hbm, ⟨52, _⟩ => ⟨S5242x1024, .bf16⟩
  | .hbm, ⟨53, _⟩ => ⟨S1024x5242, .bf16⟩
  | .hbm, ⟨54, _⟩ => ⟨S1x5242, .f32⟩
  | .hbm, ⟨55, _⟩ => ⟨S1x5242, .f32⟩
  | .hbm, ⟨56, _⟩ => ⟨S8192x5242, .f32⟩
  | .local _ .vmem, ⟨0, _⟩ => ⟨S256x1024, .f32⟩
  | .local _ .vmem, ⟨1, _⟩ => ⟨S256x1024, .f32⟩
  | .local _ .vmem, ⟨2, _⟩ => ⟨S1024x5242, .bf16⟩
  | .local _ .vmem, ⟨3, _⟩ => ⟨S1x5242, .f32⟩
  | .local _ .vmem, ⟨4, _⟩ => ⟨S1x5242, .f32⟩
  | .local _ .vmem, ⟨5, _⟩ => ⟨S1x5242, .f32⟩
  | .local _ .vmem, ⟨6, _⟩ => ⟨S256x5242, .f32⟩
  | .local _ .vmem, ⟨7, _⟩ => ⟨S256x5242, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5242 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x5242 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5242 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5242 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x5242 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  bcast_S_S5242 : S_.BroadcastsInDim S5242 (![] : Fin 0 → Fin S5242.rank)
  bcast_S5242_S5242x1_0 : S5242.BroadcastsInDim S5242x1 (![0] : Fin 1 → Fin S5242x1.rank)
  concatenates_S5242x256_S5242x256_S5242x256_S5242x256_S5242x1024_d1 : Shape.Concatenates [S5242x256, S5242x256, S5242x256, S5242x256] S5242x1024 1
  transposes_S5242x1024_S1024x5242_1_0 : S5242x1024.Transposes [1, 0] S1024x5242
  shapeCasts_S5242_S1x5242 : S5242.ShapeCasts S1x5242
  inb_S256x1024_S256x1024_0_0 : ∀ a, (![0, 0] : Fin 2 → Nat) a + S256x1024.size a ≤ S256x1024.size a
  h_S256x1024 : 0 < S256x1024.numel
  inb_S1024x5242_S1024x5242_0_0 : ∀ a, (![0, 0] : Fin 2 → Nat) a + S1024x5242.size a ≤ S1024x5242.size a
  h_S1024x5242 : 0 < S1024x5242.numel
  shapeCasts_S1024x5242_S1024x5242 : S1024x5242.ShapeCasts S1024x5242
  inb_S1x5242_S1x5242_0_0 : ∀ a, (![0, 0] : Fin 2 → Nat) a + S1x5242.size a ≤ S1x5242.size a
  h_S1x5242 : 0 < S1x5242.numel
  broadcasts_S1x5242_S256x5242 : S1x5242.Broadcasts S256x5242
  reduces_S256x5242_S256 : S256x5242.Reduces [1] S256
  shapeCasts_S256_S256x1 : S256.ShapeCasts S256x1
  broadcasts_S256x1_S256x5242 : S256x1.Broadcasts S256x5242
  shapeCasts_S1x5242_S1x5242 : S1x5242.ShapeCasts S1x5242
  inb_S256x5242_S256x5242_0_0 : ∀ a, (![0, 0] : Fin 2 → Nat) a + S256x5242.size a ≤ S256x5242.size a
  h_S256x5242 : 0 < S256x5242.numel
  gather_S7x256_S5242x1_S5242x256_1_0_n_n_0_1_1256_wf : GatherDims.WF S7x256 S5242x1 S5242x256 [1] [0] [] [0] [] 1 ![1, 256]
  gather_S72x256_S5242x1_S5242x256_1_0_n_n_0_1_1256_wf : GatherDims.WF S72x256 S5242x1 S5242x256 [1] [0] [] [0] [] 1 ![1, 256]
  gather_S260x256_S5242x1_S5242x256_1_0_n_n_0_1_1256_wf : GatherDims.WF S260x256 S5242x1 S5242x256 [1] [0] [] [0] [] 1 ![1, 256]
  gather_S5242x256_S5242x1_S5242x256_1_0_n_n_0_1_1256_wf : GatherDims.WF S5242x256 S5242x1 S5242x256 [1] [0] [] [0] [] 1 ![1, 256]
  dot_S256x1024_S1024x5242_S256x5242_1_0_0_1_n_n_wf : DotDims.WF S256x1024 S1024x5242 S256x5242 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x5242.size a ≤ S1024x5242.size a
  hwx0_1 : ∀ i : grid0.Coords, EltTy.bits .bf16 = 32 ∨ (Rect.block (s := S1024x5242) S1024x5242.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x5242.size a ≤ S1x5242.size a
  hwx0_2 : ∀ i : grid0.Coords, EltTy.bits .f32 = 32 ∨ (Rect.block (s := S1x5242) S1x5242.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x5242.size a ≤ S1x5242.size a
  hwx0_3 : ∀ i : grid0.Coords, EltTy.bits .f32 = 32 ∨ (Rect.block (s := S1x5242) S1x5242.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x5242.size a ≤ S1x5242.size a
  hwx0_4 : ∀ i : grid0.Coords, EltTy.bits .f32 = 32 ∨ (Rect.block (s := S1x5242) S1x5242.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x5242.size a ≤ S8192x5242.size a
  hwx0_5 : ∀ i : grid0.Coords, EltTy.bits .f32 = 32 ∨ (Rect.block (s := S8192x5242) S256x5242.size (cc0_transform_5 i) (hinb0_5 i)).WholeWords (EltTy.packing .f32)

variable [Facts₀]

def gather_S7x256_S5242x1_S5242x256_1_0_n_n_0_1_1256 : GatherDims S7x256 S5242x1 S5242x256 where
  offsetDims := [1]
  collapsedSliceDims := [0]
  operandBatchingDims := []
  startIndicesBatchingDims := []
  startIndexMap := [0]
  indexVectorDim := 1
  sliceSizes := ![1, 256]
  wf := gather_S7x256_S5242x1_S5242x256_1_0_n_n_0_1_1256_wf
def gather_S72x256_S5242x1_S5242x256_1_0_n_n_0_1_1256 : GatherDims S72x256 S5242x1 S5242x256 where
  offsetDims := [1]
  collapsedSliceDims := [0]
  operandBatchingDims := []
  startIndicesBatchingDims := []
  startIndexMap := [0]
  indexVectorDim := 1
  sliceSizes := ![1, 256]
  wf := gather_S72x256_S5242x1_S5242x256_1_0_n_n_0_1_1256_wf
def gather_S260x256_S5242x1_S5242x256_1_0_n_n_0_1_1256 : GatherDims S260x256 S5242x1 S5242x256 where
  offsetDims := [1]
  collapsedSliceDims := [0]
  operandBatchingDims := []
  startIndicesBatchingDims := []
  startIndexMap := [0]
  indexVectorDim := 1
  sliceSizes := ![1, 256]
  wf := gather_S260x256_S5242x1_S5242x256_1_0_n_n_0_1_1256_wf
def gather_S5242x256_S5242x1_S5242x256_1_0_n_n_0_1_1256 : GatherDims S5242x256 S5242x1 S5242x256 where
  offsetDims := [1]
  collapsedSliceDims := [0]
  operandBatchingDims := []
  startIndicesBatchingDims := []
  startIndexMap := [0]
  indexVectorDim := 1
  sliceSizes := ![1, 256]
  wf := gather_S5242x256_S5242x1_S5242x256_1_0_n_n_0_1_1256_wf
def dot_S256x1024_S1024x5242_S256x5242_1_0_0_1_n_n : DotDims S256x1024 S1024x5242 S256x5242 where
  lhsContracting := [1]
  rhsContracting := [0]
  lhsNonContracting := [0]
  rhsNonContracting := [1]
  lhsBatch := []
  rhsBatch := []
  wf := dot_S256x1024_S1024x5242_S256x5242_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S1024x5242.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1x5242.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S1x5242.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S1x5242.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v36) S256x5242.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S7x256 : Shape := ⟨2, ![7, 256]⟩
abbrev S72x256 : Shape := ⟨2, ![72, 256]⟩
abbrev S260x256 : Shape := ⟨2, ![260, 256]⟩
abbrev S5242x256 : Shape := ⟨2, ![5242, 256]⟩
abbrev S1x5242 : Shape := ⟨2, ![1, 5242]⟩
abbrev S5242 : Shape := ⟨1, ![5242]⟩
abbrev S_ : Shape := ⟨0, ![]⟩
abbrev S5242x1 : Shape := ⟨2, ![5242, 1]⟩
abbrev S5242x1024 : Shape := ⟨2, ![5242, 1024]⟩
abbrev S1024x5242 : Shape := ⟨2, ![1024, 5242]⟩
abbrev S8192x5242 : Shape := ⟨2, ![8192, 5242]⟩
abbrev S8192 : Shape := ⟨1, ![8192]⟩
abbrev S8192x1 : Shape := ⟨2, ![8192, 1]⟩

abbrev nBuf : Space → Nat
  | .hbm => 82
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S7x256, .f32⟩
  | .hbm, ⟨2, _⟩ => ⟨S72x256, .f32⟩
  | .hbm, ⟨3, _⟩ => ⟨S260x256, .f32⟩
  | .hbm, ⟨4, _⟩ => ⟨S5242x256, .f32⟩
  | .hbm, ⟨5, _⟩ => ⟨S1x5242, .f32⟩
  | .hbm, ⟨6, _⟩ => ⟨S5242, .f32⟩
  | .hbm, ⟨7, _⟩ => ⟨S5242, .f32⟩
  | .hbm, ⟨8, _⟩ => ⟨S5242, .i32⟩
  | .hbm, ⟨9, _⟩ => ⟨S5242, .i32⟩
  | .hbm, ⟨10, _⟩ => ⟨S5242, .i32⟩
  | .hbm, ⟨11, _⟩ => ⟨S5242, .i32⟩
  | .hbm, ⟨12, _⟩ => ⟨S_, .i32⟩
  | .hbm, ⟨13, _⟩ => ⟨S5242, .i32⟩
  | .hbm, ⟨14, _⟩ => ⟨S5242, .i1⟩
  | .hbm, ⟨15, _⟩ => ⟨S_, .i32⟩
  | .hbm, ⟨16, _⟩ => ⟨S5242, .i32⟩
  | .hbm, ⟨17, _⟩ => ⟨S5242, .i32⟩
  | .hbm, ⟨18, _⟩ => ⟨S5242, .i32⟩
  | .hbm, ⟨19, _⟩ => ⟨S5242x1, .i32⟩
  | .hbm, ⟨20, _⟩ => ⟨S5242x256, .f32⟩
  | .hbm, ⟨21, _⟩ => ⟨S_, .i32⟩
  | .hbm, ⟨22, _⟩ => ⟨S5242, .i32⟩
  | .hbm, ⟨23, _⟩ => ⟨S5242, .i1⟩
  | .hbm, ⟨24, _⟩ => ⟨S_, .i32⟩
  | .hbm, ⟨25, _⟩ => ⟨S5242, .i32⟩
  | .hbm, ⟨26, _⟩ => ⟨S5242, .i32⟩
  | .hbm, ⟨27, _⟩ => ⟨S5242, .i32⟩
  | .hbm, ⟨28, _⟩ => ⟨S5242x1, .i32⟩
  | .hbm, ⟨29, _⟩ => ⟨S5242x256, .f32⟩
  | .hbm, ⟨30, _⟩ => ⟨S_, .i32⟩
  | .hbm, ⟨31, _⟩ => ⟨S5242, .i32⟩
  | .hbm, ⟨32, _⟩ => ⟨S5242, .i1⟩
  | .hbm, ⟨33, _⟩ => ⟨S_, .i32⟩
  | .hbm, ⟨34, _⟩ => ⟨S5242, .i32⟩
  | .hbm, ⟨35, _⟩ => ⟨S5242, .i32⟩
  | .hbm, ⟨36, _⟩ => ⟨S5242, .i32⟩
  | .hbm, ⟨37, _⟩ => ⟨S5242x1, .i32⟩
  | .hbm, ⟨38, _⟩ => ⟨S5242x256, .f32⟩
  | .hbm, ⟨39, _⟩ => ⟨S_, .i32⟩
  | .hbm, ⟨40, _⟩ => ⟨S5242, .i32⟩
  | .hbm, ⟨41, _⟩ => ⟨S5242, .i1⟩
  | .hbm, ⟨42, _⟩ => ⟨S_, .i32⟩
  | .hbm, ⟨43, _⟩ => ⟨S5242, .i32⟩
  | .hbm, ⟨44, _⟩ => ⟨S5242, .i32⟩
  | .hbm, ⟨45, _⟩ => ⟨S5242, .i32⟩
  | .hbm, ⟨46, _⟩ => ⟨S5242x1, .i32⟩
  | .hbm, ⟨47, _⟩ => ⟨S5242x256, .f32⟩
  | .hbm, ⟨48, _⟩ => ⟨S5242x1024, .f32⟩
  | .hbm, ⟨49, _⟩ => ⟨S1024x5242, .f32⟩
  | .hbm, ⟨50, _⟩ => ⟨S8192x5242, .f32⟩
  | .hbm, ⟨51, _⟩ => ⟨S8192x5242, .f32⟩
  | .hbm, ⟨52, _⟩ => ⟨S8192x5242, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S8192x5242, .f32⟩
  | .hbm, ⟨60, _⟩ => ⟨S8192x5242, .f32⟩
  | .hbm, ⟨61, _⟩ => ⟨S8192x5242, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S8192x5242, .f32⟩
  | .hbm, ⟨69, _⟩ => ⟨S8192x5242, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S8192x1, .f32⟩
  | .hbm, ⟨74, _⟩ => ⟨S8192x5242, .f32⟩
  | .hbm, ⟨75, _⟩ => ⟨S8192x5242, .f32⟩
  | .hbm, ⟨76, _⟩ => ⟨S1x5242, .f32⟩
  | .hbm, ⟨77, _⟩ => ⟨S8192x5242, .f32⟩
  | .hbm, ⟨78, _⟩ => ⟨S8192x5242, .f32⟩
  | .hbm, ⟨79, _⟩ => ⟨S1x5242, .f32⟩
  | .hbm, ⟨80, _⟩ => ⟨S8192x5242, .f32⟩
  | .hbm, ⟨81, _⟩ => ⟨S8192x5242, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_c_6 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst : Ref sig .tc := ⟨.hbm, 53, rfl⟩
abbrev main_v33 : Ref sig .tc := ⟨.hbm, 54, rfl⟩
abbrev main_v34 : Ref sig .tc := ⟨.hbm, 55, rfl⟩
abbrev main_cst_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩

abbrev nD : Nat := 1
abbrev τ : Topo := Topo.v7x

variable {F : FTy → Type} [FloatOps F]

class Facts₀ : Prop where
  bcast_S_S5242 : S_.BroadcastsInDim S5242 (![] : Fin 0 → Fin S5242.rank)
  bcast_S5242_S5242x1_0 : S5242.BroadcastsInDim S5242x1 (![0] : Fin 1 → Fin S5242x1.rank)
  concatenates_S5242x256_S5242x256_S5242x256_S5242x256_S5242x1024_d1 : Shape.Concatenates [S5242x256, S5242x256, S5242x256, S5242x256] S5242x1024 1
  transposes_S5242x1024_S1024x5242_1_0 : S5242x1024.Transposes [1, 0] S1024x5242
  bcast_S1x5242_S8192x5242_0_1 : S1x5242.BroadcastsInDim S8192x5242 (![0, 1] : Fin 2 → Fin S8192x5242.rank)
  reducesTo_S8192x5242_S8192_d1 : S8192x5242.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x5242_0_1 : S8192x1.BroadcastsInDim S8192x5242 (![0, 1] : Fin 2 → Fin S8192x5242.rank)
  bcast_S5242_S1x5242_1 : S5242.BroadcastsInDim S1x5242 (![1] : Fin 1 → Fin S1x5242.rank)
  gather_S7x256_S5242x1_S5242x256_1_0_n_n_0_1_1256_wf : GatherDims.WF S7x256 S5242x1 S5242x256 [1] [0] [] [0] [] 1 ![1, 256]
  gather_S72x256_S5242x1_S5242x256_1_0_n_n_0_1_1256_wf : GatherDims.WF S72x256 S5242x1 S5242x256 [1] [0] [] [0] [] 1 ![1, 256]
  gather_S260x256_S5242x1_S5242x256_1_0_n_n_0_1_1256_wf : GatherDims.WF S260x256 S5242x1 S5242x256 [1] [0] [] [0] [] 1 ![1, 256]
  gather_S5242x256_S5242x1_S5242x256_1_0_n_n_0_1_1256_wf : GatherDims.WF S5242x256 S5242x1 S5242x256 [1] [0] [] [0] [] 1 ![1, 256]
  dot_S8192x1024_S1024x5242_S8192x5242_1_0_0_1_n_n_wf : DotDims.WF S8192x1024 S1024x5242 S8192x5242 [1] [0] [0] [1] [] []

variable [Facts₀]

def gather_S7x256_S5242x1_S5242x256_1_0_n_n_0_1_1256 : GatherDims S7x256 S5242x1 S5242x256 where
  offsetDims := [1]
  collapsedSliceDims := [0]
  operandBatchingDims := []
  startIndicesBatchingDims := []
  startIndexMap := [0]
  indexVectorDim := 1
  sliceSizes := ![1, 256]
  wf := gather_S7x256_S5242x1_S5242x256_1_0_n_n_0_1_1256_wf
def gather_S72x256_S5242x1_S5242x256_1_0_n_n_0_1_1256 : GatherDims S72x256 S5242x1 S5242x256 where
  offsetDims := [1]
  collapsedSliceDims := [0]
  operandBatchingDims := []
  startIndicesBatchingDims := []
  startIndexMap := [0]
  indexVectorDim := 1
  sliceSizes := ![1, 256]
  wf := gather_S72x256_S5242x1_S5242x256_1_0_n_n_0_1_1256_wf
def gather_S260x256_S5242x1_S5242x256_1_0_n_n_0_1_1256 : GatherDims S260x256 S5242x1 S5242x256 where
  offsetDims := [1]
  collapsedSliceDims := [0]
  operandBatchingDims := []
  startIndicesBatchingDims := []
  startIndexMap := [0]
  indexVectorDim := 1
  sliceSizes := ![1, 256]
  wf := gather_S260x256_S5242x1_S5242x256_1_0_n_n_0_1_1256_wf
def gather_S5242x256_S5242x1_S5242x256_1_0_n_n_0_1_1256 : GatherDims S5242x256 S5242x1 S5242x256 where
  offsetDims := [1]
  collapsedSliceDims := [0]
  operandBatchingDims := []
  startIndicesBatchingDims := []
  startIndexMap := [0]
  indexVectorDim := 1
  sliceSizes := ![1, 256]
  wf := gather_S5242x256_S5242x1_S5242x256_1_0_n_n_0_1_1256_wf
def dot_S8192x1024_S1024x5242_S8192x5242_1_0_0_1_n_n : DotDims S8192x1024 S1024x5242 S8192x5242 where
  lhsContracting := [1]
  rhsContracting := [0]
  lhsNonContracting := [0]
  rhsNonContracting := [1]
  lhsBatch := []
  rhsBatch := []
  wf := dot_S8192x1024_S1024x5242_S8192x5242_1_0_0_1_n_n_wf

class Facts : Prop extends Facts₀ where

variable [Facts]
-- ==== Proof.FrameBits.lean ====
import proofs.«401905_j89051851915584_3_alg».proof.Proof.Gen.Kernel.Launch
import proofs.«401905_j89051851915584_3_alg».proof.Proof.Gen.Kernel.Skeleton
import proofs.«401905_j89051851915584_3_alg».proof.Proof.Gen.Kernel.Points
import Idealize.ShloMosaic.Lib.Pipeline.FrameBody
import Idealize.ShloMosaic.Lib.Ring
import Idealize.ShloMosaic.Lib.Tactic

/-!
# The run of the program around its one grid of 32 row blocks

The host side builds the weight matrix once: each of the four small tables is read at its (sign-wrapped) row
indices, the four 5242 × 256 pieces are laid side by side into a 5242 × 1024 array, and that array is
transposed to 1024 × 5242; the scale and shift vectors are re-laid as 1 × 5242 rows. Nothing on the host
writes an argument array.

The grid then visits the 32 blocks of 256 rows of `x`. At a point the body holds one 256 × 1024 block of
`x`, the whole 1024 × 5242 weight matrix and the three 1 × 5242 rows, and stores one 256 × 5242 block of
the result: a single store covering the whole block, whose value is one pure function of the five loads.

What is proved here: what every buffer holds when the region is entered (`V`), what the body leaves in the
output block as a function of the input blocks (`out0_5`), that every weakly fair execution terminates with the
result array assembled from those blocks and every other unscoped buffer as the region found it (`run_main`),
and from it that the twelve argument arrays end as they began (`frame`).
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers after the 44 host operations: each buffer an operation writes holds that operation's
    value of the buffers before it, every other buffer its launch contents. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is its host operations followed by the region, so the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- None of the host operations before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
/-- None of the host operations before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
/-- None of the host operations before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
/-- None of the host operations before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
/-- None of the host operations before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
/-- None of the host operations before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
/-- None of the host operations before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
/-- None of the host operations before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
/-- None of the host operations before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
/-- None of the host operations before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
/-- None of the host operations before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
/-- None of the host operations before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))

/-! ## A window's block at a grid point -/

/-- Window `w`'s block at point `t`: its rectangle of the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current buffer holds its block at every point, whether the point fetches it or not
    (an unfetched window's block index has not moved since the fetch), once the body leaves inputs in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## From the run's post to the arguments -/

/-- A run ending with every window's array at what the grid assembled and every other unscoped buffer as the
    region found it ends with the twelve arguments as launched: `x` and `bias` are input windows' arrays
    (never written back), the other ten are staged by no window, and no host operation wrote any of them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 2).trans (((dats 0 c).arrAt_in 2 rfl _).trans ((hA c 2).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) h

/-! ## The body -/

/-- The whole 256 × 1024 block of `x`, the whole weight matrix, a whole 1 × 5242 row, the whole output block. -/
abbrev r0_0 : Rect S256x1024 := Rect.unit (s := S256x1024) ![0, 0] S256x1024.size inb_S256x1024_S256x1024_0_0
abbrev r0_1 : Rect S1024x5242 := Rect.unit (s := S1024x5242) ![0, 0] S1024x5242.size inb_S1024x5242_S1024x5242_0_0
abbrev r0_2 : Rect S1x5242 := Rect.unit (s := S1x5242) ![0, 0] S1x5242.size inb_S1x5242_S1x5242_0_0
abbrev r0_5 : Rect S256x5242 := Rect.unit (s := S256x5242) ![0, 0] S256x5242.size inb_S256x5242_S256x5242_0_0

/-- The output block after the body, from the five input blocks: its one store, of the body's arithmetic
    applied to the five loads. -/
def out0_5 (x0 : Vec F S256x1024 .f32) (x1 : Vec F S1024x5242 .bf16) (x2 x3 x4 : Vec F S1x5242 .f32) : Vec F S256x5242 .f32 :=
  View.canon [⟨r0_5, k0_pay1 (View.ld x0 r0_0) (View.ld x1 r0_1) (View.ld x2 r0_2) (View.ld x3 r0_2) (View.ld x4 r0_2)⟩]

/-- The one store covers the block. -/
theorem cover0_5 (p0 : Vec F S256x5242 .f32) (y : S256x5242.Idx) :
    ∃ pc ∈ ([⟨r0_5, p0⟩] : List (View.Piece (Elt F) S256x5242 .f32)), y ∈ pc.1.set :=
  View.cover_of_tiled [⟨r0_5, p0⟩] S256x5242.size (by rfl) y

set_option maxHeartbeats 1000000 in
/-- The body on whole buffers — the five inputs at contents `x0 … x4`, the output at anything — runs to the end
    with the inputs as they were and the output at `out0_5` of them. -/
theorem sound_kernel (c : Dev nD) (E : Set ℕ) (i : grid0.Coords)
    (arg1 : Memref sig .tc .vmem S256x1024 .f32) (harg1 : arg1.IsWhole) (arg2 : Memref sig .tc .vmem S1024x5242 .bf16) (harg2 : arg2.IsWhole)
    (arg3 : Memref sig .tc .vmem S1x5242 .f32) (harg3 : arg3.IsWhole) (arg4 : Memref sig .tc .vmem S1x5242 .f32) (harg4 : arg4.IsWhole)
    (arg5 : Memref sig .tc .vmem S1x5242 .f32) (harg5 : arg5.IsWhole) (arg6 : Memref sig .tc .vmem S256x5242 .f32) (harg6 : arg6.IsWhole)
    (x0 : Vec F S256x1024 .f32) (x1 : Vec F S1024x5242 .bf16) (x2 x3 x4 : Vec F S1x5242 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__mm_bias_ln_kernel i arg1 harg1 arg2 harg2 arg3 harg3 arg4 harg4 arg5 harg5 arg6 harg6) K := by
  simp only [cc0__mm_bias_ln_kernel_eq_skeleton]; unfold cc0__mm_bias_ln_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The proof data of the grid -/

/-- On core `c`: the arrays as the region finds them; after the body at point `t` each input buffer at its
    block and the output buffer at `out0_5` of the five input blocks; nothing else is kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = out0_5 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body at a grid point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- At any point the input buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution terminates, each window's array ending at
    what the grid assembled from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The twelve argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- The same run, keeping also what the result array ends holding: the blocks the grid wrote back, assembled. -/
theorem run_out : θ_run defs (onTc (τ := τ) (main (F := F))) ⟨m, fun _ => 0, ρ⟩ (fun r => ∀ c : Dev nD,
      r.2.mem ((c.tc : Thread nD τ).loc main_v36) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c).1 5,
      ((h c).1 0).trans ((((dats m) 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 2).trans ((((dats m) 0 c).arrAt_in 2 rfl _).trans ((A_eq m c 2).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) (run_main m ρ)

end Cert.Kernel.Hand

end
-- ==== Proof.FrameIdeal.lean ====
import proofs.«401905_j89051851915584_3_alg».proof.Proof.Gen.KernelIdeal.Launch
import proofs.«401905_j89051851915584_3_alg».proof.Proof.Gen.KernelIdeal.Skeleton
import proofs.«401905_j89051851915584_3_alg».proof.Proof.Gen.KernelIdeal.Points
import Idealize.ShloMosaic.Lib.Pipeline.FrameBody
import Idealize.ShloMosaic.Lib.Ring
import Idealize.ShloMosaic.Lib.Tactic

/-!
# The run of the program around its one grid of 32 row blocks

The host side builds the weight matrix once: each of the four small tables is read at its (sign-wrapped) row
indices, the four 5242 × 256 pieces are laid side by side into a 5242 × 1024 array, and that array is
transposed to 1024 × 5242; the scale and shift vectors are re-laid as 1 × 5242 rows. Nothing on the host
writes an argument array.

The grid then visits the 32 blocks of 256 rows of `x`. At a point the body holds one 256 × 1024 block of
`x`, the whole 1024 × 5242 weight matrix and the three 1 × 5242 rows, and stores one 256 × 5242 block of
the result: a single store covering the whole block, whose value is one pure function of the five loads.

What is proved here: what every buffer holds when the region is entered (`V`), what the body leaves in the
output block as a function of the input blocks (`out0_5`), that every weakly fair execution terminates with the
result array assembled from those blocks and every other unscoped buffer as the region found it (`run_main`),
and from it that the twelve argument arrays end as they began (`frame`).
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers after the 44 host operations: each buffer an operation writes holds that operation's
    value of the buffers before it, every other buffer its launch contents. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is its host operations followed by the region, so the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- None of the host operations before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
/-- None of the host operations before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
/-- None of the host operations before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
/-- None of the host operations before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
/-- None of the host operations before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
/-- None of the host operations before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
/-- None of the host operations before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
/-- None of the host operations before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
/-- None of the host operations before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
/-- None of the host operations before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
/-- None of the host operations before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))
/-- None of the host operations before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))

/-! ## A window's block at a grid point -/

/-- Window `w`'s block at point `t`: its rectangle of the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current buffer holds its block at every point, whether the point fetches it or not
    (an unfetched window's block index has not moved since the fetch), once the body leaves inputs in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## From the run's post to the arguments -/

/-- A run ending with every window's array at what the grid assembled and every other unscoped buffer as the
    region found it ends with the twelve arguments as launched: `x` and `bias` are input windows' arrays
    (never written back), the other ten are staged by no window, and no host operation wrote any of them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 2).trans (((dats 0 c).arrAt_in 2 rfl _).trans ((hA c 2).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) h

/-! ## The body -/

/-- The whole 256 × 1024 block of `x`, the whole weight matrix, a whole 1 × 5242 row, the whole output block. -/
abbrev r0_0 : Rect S256x1024 := Rect.unit (s := S256x1024) ![0, 0] S256x1024.size inb_S256x1024_S256x1024_0_0
abbrev r0_1 : Rect S1024x5242 := Rect.unit (s := S1024x5242) ![0, 0] S1024x5242.size inb_S1024x5242_S1024x5242_0_0
abbrev r0_2 : Rect S1x5242 := Rect.unit (s := S1x5242) ![0, 0] S1x5242.size inb_S1x5242_S1x5242_0_0
abbrev r0_5 : Rect S256x5242 := Rect.unit (s := S256x5242) ![0, 0] S256x5242.size inb_S256x5242_S256x5242_0_0

/-- The output block after the body, from the five input blocks: its one store, of the body's arithmetic
    applied to the five loads. -/
def out0_5 (x0 : Vec F S256x1024 .f32) (x1 : Vec F S1024x5242 .bf16) (x2 x3 x4 : Vec F S1x5242 .f32) : Vec F S256x5242 .f32 :=
  View.canon [⟨r0_5, k0_pay1 (View.ld x0 r0_0) (View.ld x1 r0_1) (View.ld x2 r0_2) (View.ld x3 r0_2) (View.ld x4 r0_2)⟩]

/-- The one store covers the block. -/
theorem cover0_5 (p0 : Vec F S256x5242 .f32) (y : S256x5242.Idx) :
    ∃ pc ∈ ([⟨r0_5, p0⟩] : List (View.Piece (Elt F) S256x5242 .f32)), y ∈ pc.1.set :=
  View.cover_of_tiled [⟨r0_5, p0⟩] S256x5242.size (by rfl) y

set_option maxHeartbeats 1000000 in
/-- The body on whole buffers — the five inputs at contents `x0 … x4`, the output at anything — runs to the end
    with the inputs as they were and the output at `out0_5` of them. -/
theorem sound_kernel (c : Dev nD) (E : Set ℕ) (i : grid0.Coords)
    (arg1 : Memref sig .tc .vmem S256x1024 .f32) (harg1 : arg1.IsWhole) (arg2 : Memref sig .tc .vmem S1024x5242 .bf16) (harg2 : arg2.IsWhole)
    (arg3 : Memref sig .tc .vmem S1x5242 .f32) (harg3 : arg3.IsWhole) (arg4 : Memref sig .tc .vmem S1x5242 .f32) (harg4 : arg4.IsWhole)
    (arg5 : Memref sig .tc .vmem S1x5242 .f32) (harg5 : arg5.IsWhole) (arg6 : Memref sig .tc .vmem S256x5242 .f32) (harg6 : arg6.IsWhole)
    (x0 : Vec F S256x1024 .f32) (x1 : Vec F S1024x5242 .bf16) (x2 x3 x4 : Vec F S1x5242 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__mm_bias_ln_kernel i arg1 harg1 arg2 harg2 arg3 harg3 arg4 harg4 arg5 harg5 arg6 harg6) K := by
  simp only [cc0__mm_bias_ln_kernel_eq_skeleton]; unfold cc0__mm_bias_ln_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The proof data of the grid -/

/-- On core `c`: the arrays as the region finds them; after the body at point `t` each input buffer at its
    block and the output buffer at `out0_5` of the five input blocks; nothing else is kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = out0_5 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body at a grid point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- At any point the input buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution terminates, each window's array ending at
    what the grid assembled from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The twelve argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- The same run, keeping also what the result array ends holding: the blocks the grid wrote back, assembled. -/
theorem run_out : θ_run defs (onTc (τ := τ) (main (F := F))) ⟨m, fun _ => 0, ρ⟩ (fun r => ∀ c : Dev nD,
      r.2.mem ((c.tc : Thread nD τ).loc main_v36) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c).1 5,
      ((h c).1 0).trans ((((dats m) 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 2).trans ((((dats m) 0 c).arrAt_in 2 rfl _).trans ((A_eq m c 2).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) (run_main m ρ)

end Cert.KernelIdeal.Hand

end
-- ==== Proof.Spec.lean ====
import Idealize.ShloMosaic.PureOps.Ideal
import Idealize.ShloMosaic.Lib.ValueIdx

/-!
# What both programs compute, as one function of the arrays

With `x` of 8192 rows and 1024 columns, a weight matrix `wt` of 1024 rows and 5242 columns, a bias row and the
scale and shift vectors `gam`, `bet` of length 5242, the result at row `r` and column `j` is the layer norm
over the 5242 columns of the affine row `s j = ∑ k, x[r, k] · wt[k, j] + bias[0, j]`:

  `(s j − μ) · rsqrt (σ² + ε) · gam[j] + bet[j]`,  `μ = (∑ l, s l) · (1/5242)`,  `σ² = (∑ l, (s l − μ)²) · (1/5242)`,

all on the extended reals, `ε` the exact value of the single-precision word nearest `1e-5`. The weight matrix
stays an argument: both programs build it by the same host operations from the four tables and the four
index vectors, and nothing here depends on how.
-/

noncomputable section

namespace Cert.Spec

open Idealize.ShloMosaic Idealize.ShloMosaic.ValueIdx

/-- The reciprocal of the row length. -/
def invN : EReal := ((1 / 5242 : ℝ) : EReal)

/-- The variance's guard, the exact value of the word `0x3727C5AC`. -/
def eps : EReal := Ideal.ofBits .f32 0x3727C5AC#32

/-- A row's mean: its sum times `1/5242`. -/
def mean (s : Fin 5242 → EReal) : EReal := (∑ l : Fin 5242, s l) * invN

/-- Layer norm of one row `s` with scale `g` and shift `b`, at column `j`. -/
def layerNormRow (s g b : Fin 5242 → EReal) (j : Fin 5242) : EReal :=
  (s j - mean s) * Ideal.rsqrt (mean (fun l => (s l - mean s) * (s l - mean s)) + eps) * g j + b j

/-- Row `r` of `x · wt + bias`. -/
def affineRow (x : (⟨2, ![8192, 1024]⟩ : Shape).Idx → EReal) (wt : (⟨2, ![1024, 5242]⟩ : Shape).Idx → EReal)
    (bias : (⟨2, ![1, 5242]⟩ : Shape).Idx → EReal) (r : Fin 8192) (j : Fin 5242) : EReal :=
  (∑ k : Fin 1024, x (ix2 r k) * wt (ix2 k j)) + bias (ix2 0 j)

/-- The whole result array. -/
def G (x : (⟨2, ![8192, 1024]⟩ : Shape).Idx → EReal) (wt : (⟨2, ![1024, 5242]⟩ : Shape).Idx → EReal)
    (bias : (⟨2, ![1, 5242]⟩ : Shape).Idx → EReal) (gam bet : (⟨1, ![5242]⟩ : Shape).Idx → EReal) :
    (⟨2, ![8192, 5242]⟩ : Shape).Idx → EReal :=
  fun i => layerNormRow (affineRow x wt bias ⟨(i 0).val, (i 0).isLt⟩) (fun j => gam (ix1 j)) (fun j => bet (ix1 j))
    ⟨(i 1).val, (i 1).isLt⟩

theorem G_ix2 (x : (⟨2, ![8192, 1024]⟩ : Shape).Idx → EReal) (wt : (⟨2, ![1024, 5242]⟩ : Shape).Idx → EReal)
    (bias : (⟨2, ![1, 5242]⟩ : Shape).Idx → EReal) (gam bet : (⟨1, ![5242]⟩ : Shape).Idx → EReal) (r : Fin 8192) (j : Fin 5242) :
    G x wt bias gam bet (ix2 r j) = layerNormRow (affineRow x wt bias r) (fun j => gam (ix1 j)) (fun j => bet (ix1 j)) j := rfl

end Cert.Spec

end
-- ==== Proof.Payload.lean ====
import proofs.«401905_j89051851915584_3_alg».proof.Proof.Gen.KernelIdeal.Skeleton
import proofs.«401905_j89051851915584_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

/-!
# The value the body stores, at a row and a column

The body holds a 256 × 1024 block `v0` of `x`, the 1024 × 5242 weight matrix `v2`, and three 1 × 5242 rows
`v5` (bias), `v24` (scale), `v28` (shift). On the extended reals the value it stores at row `p`, column `q`
is the layer norm of the affine row `s j = ∑ k, v0[p, k] · v2[k, j] + v5[0, j]`: the matrix unit's product into
a zero accumulator is the plain sum over `k` (narrowing to half precision is the identity there), a lane sum over
the 5242 columns is the plain sum, the named constant is 1/5242, and the keep-dims column [256, 1] is read back
at its row wherever it is broadcast over the columns.
-/

noncomputable section

namespace Cert.KernelIdeal.Payload

open Idealize.ShloMosaic Idealize.ShloMosaic.ValueIdx Cert.KernelIdeal Cert.KernelIdeal.Gen Cert.Spec

/-! ## Two column forms of the layout operations -/

section Layout
variable {α : Type}

/-- A length-`a` vector cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The matrix product -/

theorem lhs_0 (i : S256x5242.Idx) (q : dot_S256x1024_S1024x5242_S256x5242_1_0_0_1_n_n.contr.Idx) :
    (dot_S256x1024_S1024x5242_S256x5242_1_0_0_1_n_n.lhsIdx i q 0).val = (i 0).val := by
  unfold DotDims.lhsIdx
  rw [dif_neg (show ¬(0 : Fin S256x1024.rank) ∈ dot_S256x1024_S1024x5242_S256x5242_1_0_0_1_n_n.lhsBatch by decide), dif_pos (show (0 : Fin S256x1024.rank) ∈ dot_S256x1024_S1024x5242_S256x5242_1_0_0_1_n_n.lhsNonContracting by decide)]
  rfl
theorem lhs_1 (i : S256x5242.Idx) (q : dot_S256x1024_S1024x5242_S256x5242_1_0_0_1_n_n.contr.Idx) :
    (dot_S256x1024_S1024x5242_S256x5242_1_0_0_1_n_n.lhsIdx i q 1).val = (q ⟨0, by decide⟩).val :=
  dot_S256x1024_S1024x5242_S256x5242_1_0_0_1_n_n.lhsIdx_val_of_single rfl i q
theorem rhs_0 (i : S256x5242.Idx) (q : dot_S256x1024_S1024x5242_S256x5242_1_0_0_1_n_n.contr.Idx) :
    (dot_S256x1024_S1024x5242_S256x5242_1_0_0_1_n_n.rhsIdx i q 0).val = (q ⟨0, by decide⟩).val :=
  dot_S256x1024_S1024x5242_S256x5242_1_0_0_1_n_n.rhsIdx_val_of_single rfl i q
theorem rhs_1 (i : S256x5242.Idx) (q : dot_S256x1024_S1024x5242_S256x5242_1_0_0_1_n_n.contr.Idx) :
    (dot_S256x1024_S1024x5242_S256x5242_1_0_0_1_n_n.rhsIdx i q 1).val = (i 1).val := by
  unfold DotDims.rhsIdx
  rw [dif_neg (show ¬(1 : Fin S1024x5242.rank) ∈ dot_S256x1024_S1024x5242_S256x5242_1_0_0_1_n_n.rhsBatch by decide), dif_pos (show (1 : Fin S1024x5242.rank) ∈ dot_S256x1024_S1024x5242_S256x5242_1_0_0_1_n_n.rhsNonContracting by decide)]
  rfl

/-- The block of `x · wt + bias` the body computes first. -/
def affBlk (v0 : Vec Ideal S256x1024 .f32) (v2 : Vec Ideal S1024x5242 .bf16) (v5 : Vec Ideal S1x5242 .f32) : FVec Ideal S256x5242 .f32 :=
  addf (matmul dot_S256x1024_S1024x5242_S256x5242_1_0_0_1_n_n none (truncf .bf16 v0 bitsLt_bf16_f32 : FVec Ideal S256x1024 .bf16)
      (shapeCast S1024x5242 v2 shapeCasts_S1024x5242_S1024x5242 : FVec Ideal S1024x5242 .bf16)
      (constant S256x5242 .f32 0x00000000#32)) (broadcastTo S256x5242 v5 broadcasts_S1x5242_S256x5242)

/-- At row `p`, column `q` it is the dot of row `p` of the block with column `q` of the weights, plus the bias. -/
theorem affBlk_ix2 (v0 : Vec Ideal S256x1024 .f32) (v2 : Vec Ideal S1024x5242 .bf16) (v5 : Vec Ideal S1x5242 .f32) (p : Fin 256) (q : Fin 5242) :
    affBlk v0 v2 v5 (ix2 p q) = (∑ k : Fin 1024, v0 (ix2 p k) * v2 (ix2 k q)) + v5 (ix2 0 q) := by
  unfold affBlk
  rw [addf_apply, broadcastTo_1b_ab_apply, shapeCast_self]
  refine congrArg (· + v5 (ix2 0 q)) ?_
  simp only [matmul]
  rw [Ideal.matmul_constant_zero_apply, ← Equiv.sum_comp (contrEquiv1 dot_S256x1024_S1024x5242_S256x5242_1_0_0_1_n_n 1024 rfl rfl).symm]
  refine Finset.sum_congr rfl fun k _ => ?_
  have hk := contrEquiv1_symm_val dot_S256x1024_S1024x5242_S256x5242_1_0_0_1_n_n 1024 rfl rfl k
  have el : dot_S256x1024_S1024x5242_S256x5242_1_0_0_1_n_n.lhsIdx (ix2 p q) ((contrEquiv1 dot_S256x1024_S1024x5242_S256x5242_1_0_0_1_n_n 1024 rfl rfl).symm k) = ix2 p k := funext fun a => Fin.ext (by
    match a with
    | ⟨0, _⟩ => exact lhs_0 _ _
    | ⟨1, _⟩ => exact (lhs_1 _ _).trans hk)
  have er : dot_S256x1024_S1024x5242_S256x5242_1_0_0_1_n_n.rhsIdx (ix2 p q) ((contrEquiv1 dot_S256x1024_S1024x5242_S256x5242_1_0_0_1_n_n 1024 rfl rfl).symm k) = ix2 k q := funext fun a => Fin.ext (by
    match a with
    | ⟨0, _⟩ => exact (rhs_0 _ _).trans hk
    | ⟨1, _⟩ => exact rhs_1 _ _)
  rw [el, er]
  rfl

/-! ## The row mean -/

/-- The named reciprocal is 1/5242. -/
theorem inv_n : Named.named (F := Ideal) κ "inv_n" (φ := .f32) 0x39480898#32 = invN :=
  IdealRules.named_const.ideal_named_scalar _ _ _ _ rfl

/-- A lane sum over the 5242 columns, at row `p`. -/
theorem rowSum_ix1 (v : FVec Ideal S256x5242 .f32) (hacc : (0x00000000#32 : BitVec 32) = 0x00000000#32) (p : Fin 256) :
    multiReduction .add [1] S256 v 0x00000000#32 reduces_S256x5242_S256 (.inl rfl) hacc (ix1 p) = ∑ k : Fin 5242, v (ix2 p k) :=
  (Ideal.multiReduction_add_single v 0x00000000#32 reduces_S256x5242_S256 (.inl rfl) hacc (ix1 p)).trans
    (show (∑ k : Fin (S256x5242.size 1), v (reduces_S256x5242_S256.lift (ix1 p) k)) = ∑ k : Fin 5242, v (ix2 p k) from
      Finset.sum_congr rfl fun k _ => congrArg v (by funext c; apply Fin.ext; fin_cases c <;> rfl))

/-- The keep-dims mean column of a block: the lane sum, as a column, times the named reciprocal. -/
def colMean (v : FVec Ideal S256x5242 .f32) : FVec Ideal S256x1 .f32 :=
  mulf (shapeCast S256x1 (multiReduction .add [1] S256 v 0x00000000#32 reduces_S256x5242_S256 (.inl rfl) rfl) shapeCasts_S256_S256x1)
    (broadcast S256x1 (Named.named (F := Ideal) κ "inv_n" (φ := .f32) 0x39480898#32))

theorem colMean_ix2 (v : FVec Ideal S256x5242 .f32) (p : Fin 256) : colMean v (ix2 p 0) = mean (fun l => v (ix2 p l)) := by
  unfold colMean
  rw [mulf_apply, shapeCast_a_a1_apply, rowSum_ix1, broadcast_apply, inv_n]
  rfl

/-! ## The stored value -/

/-- The body's arithmetic in the stages above. -/
theorem pay_eq (v0 : Vec Ideal S256x1024 .f32) (v2 : Vec Ideal S1024x5242 .bf16) (v5 v24 v28 : Vec Ideal S1x5242 .f32) :
    k0_pay1 (F := Ideal) v0 v2 v5 v24 v28
      = addf (mulf (mulf (subf (affBlk v0 v2 v5) (broadcastTo S256x5242 (colMean (affBlk v0 v2 v5)) broadcasts_S256x1_S256x5242))
            (broadcastTo S256x5242 (rsqrt (addf (colMean (mulf
                (subf (affBlk v0 v2 v5) (broadcastTo S256x5242 (colMean (affBlk v0 v2 v5)) broadcasts_S256x1_S256x5242))
                (subf (affBlk v0 v2 v5) (broadcastTo S256x5242 (colMean (affBlk v0 v2 v5)) broadcasts_S256x1_S256x5242))))
              (broadcast S256x1 (Scalar.ofBits .f32 0x3727C5AC#32)))) broadcasts_S256x1_S256x5242))
          (broadcastTo S256x5242 (shapeCast S1x5242 v24 shapeCasts_S1x5242_S1x5242) broadcasts_S1x5242_S256x5242))
        (broadcastTo S256x5242 (shapeCast S1x5242 v28 shapeCasts_S1x5242_S1x5242) broadcasts_S1x5242_S256x5242) := rfl

/-- The centred block at `(p, l)`. -/
theorem centred_ix2 (s : FVec Ideal S256x5242 .f32) (p : Fin 256) (l : Fin 5242) :
    subf s (broadcastTo S256x5242 (colMean s) broadcasts_S256x1_S256x5242) (ix2 p l) = s (ix2 p l) - mean (fun l => s (ix2 p l)) := by
  rw [subf_apply, broadcastTo_a1_ab_apply, colMean_ix2]

/-- What the body stores at row `p`, column `q`. -/
theorem pay_ix2 (v0 : Vec Ideal S256x1024 .f32) (v2 : Vec Ideal S1024x5242 .bf16) (v5 v24 v28 : Vec Ideal S1x5242 .f32) (p : Fin 256) (q : Fin 5242) :
    k0_pay1 (F := Ideal) v0 v2 v5 v24 v28 (ix2 p q)
      = layerNormRow (fun j => (∑ k : Fin 1024, v0 (ix2 p k) * v2 (ix2 k j)) + v5 (ix2 0 j)) (fun j => v24 (ix2 0 j)) (fun j => v28 (ix2 0 j)) q := by
  rw [pay_eq]
  generalize hs : affBlk v0 v2 v5 = s
  have hs' : ∀ l : Fin 5242, s (ix2 p l) = (∑ k : Fin 1024, v0 (ix2 p k) * v2 (ix2 k l)) + v5 (ix2 0 l) := fun l => by
    rw [← hs]; exact affBlk_ix2 v0 v2 v5 p l
  rw [addf_apply, mulf_apply, mulf_apply, centred_ix2, broadcastTo_a1_ab_apply, broadcastTo_1b_ab_apply, broadcastTo_1b_ab_apply,
    shapeCast_self, shapeCast_self]
  show (s (ix2 p q) - mean fun l => s (ix2 p l))
      * Ideal.rsqrt (colMean (mulf (subf s (broadcastTo S256x5242 (colMean s) broadcasts_S256x1_S256x5242))
          (subf s (broadcastTo S256x5242 (colMean s) broadcasts_S256x1_S256x5242))) (ix2 p 0) + eps)
      * v24 (ix2 0 q) + v28 (ix2 0 q) = _
  rw [colMean_ix2]
  simp only [mulf_apply, centred_ix2, hs']
  rfl

end Cert.KernelIdeal.Payload

end
-- ==== Proof.KernelValue.lean ====
import proofs.«401905_j89051851915584_3_alg».proof.Proof.FrameIdeal
import proofs.«401905_j89051851915584_3_alg».proof.Proof.Payload
import Idealize.ShloMosaic.Lib.Pipeline.Value
import Idealize.ShloMosaic.Lib.ValueLayout
import Idealize.ShloMosaic.Lib.StableHlo.Run

/-!
# The result array of the idealized kernel, as one function of the arrays

Point `t` of the grid reads rows `256 t … 256 t + 255` of `x`, the whole weight matrix and the three whole rows,
and writes back rows `256 t … 256 t + 255` of the result. What it writes at row `p` of its block, column `q`, is
the layer norm of row `256 t + p` of `x · wt + bias` at column `q`, with the scale and shift read off the
re-laid 1 × 5242 rows, which hold the length-5242 arguments. The 32 blocks tile the 8192 rows, so the result array
ends holding the specification `Spec.G` of `x`, the weight matrix as the region finds it, `bias`, `gamma`, `beta`.
-/

set_option maxRecDepth 16384

noncomputable section

namespace Cert.KernelIdeal.Val

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.KernelIdeal.Hand Cert.KernelIdeal.Payload Cert.Spec

variable (m : (ℓ : Loc nD τ sig) → Buf (Elt Ideal) ℓ) (ρ : Dev nD → PrngReg)

theorem hz : (![0, 0] : Fin 2 → Nat) = fun _ => 0 := funext fun a => by fin_cases a <;> rfl

/-- The block index of each window at each point: `x` and the result move with the point along the rows, the
    other four windows stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 32 := Nat.lt_of_lt_of_eq t.isLt N_0

/-! ## The two rows the host re-lays -/

/-- The scale row the region finds is `gamma` as a 1 × 5242 array. -/
theorem gamma_row (c : Dev nD) : (V m c main_v34 : S1x5242.Idx → EReal)
    = shapeCast S1x5242 (m ((c : Thread nD τ).loc main_arg6) : S5242.Idx → EReal) shapeCasts_S5242_S1x5242 := by
  dsimp only [V, hostOps0]; after_results; rfl

/-- The shift row the region finds is `beta` as a 1 × 5242 array. -/
theorem beta_row (c : Dev nD) : (V m c main_v35 : S1x5242.Idx → EReal)
    = shapeCast S1x5242 (m ((c : Thread nD τ).loc main_arg7) : S5242.Idx → EReal) shapeCasts_S5242_S1x5242 := by
  dsimp only [V, hostOps0]; after_results; rfl

/-! ## The input blocks at a point, at literal coordinates -/

abbrev xblk (c : Dev nD) (t : Fin cfg0.N) : Vec Ideal S256x1024 .f32 := iblk m c 0 t
abbrev wblk (c : Dev nD) (t : Fin cfg0.N) : Vec Ideal S1024x5242 .bf16 := iblk m c 1 t
abbrev bblk (c : Dev nD) (t : Fin cfg0.N) : Vec Ideal S1x5242 .f32 := iblk m c 2 t
abbrev gblk (c : Dev nD) (t : Fin cfg0.N) : Vec Ideal S1x5242 .f32 := iblk m c 3 t
abbrev hblk (c : Dev nD) (t : Fin cfg0.N) : Vec Ideal S1x5242 .f32 := iblk m c 4 t

/-- The weight matrix as the region finds it. -/
abbrev wArr (c : Dev nD) : S1024x5242.Idx → EReal := V m c main_v33

/-- Row `p` of point `t`'s block of `x` is row `256 t + p` of `x`. -/
theorem xblk_ix2 (c : Dev nD) (t : Fin cfg0.N) (p : Fin 256) (k : Fin 1024) :
    xblk m c t (ix2 p k) = (m ((c : Thread nD τ).loc main_arg0) : S8192x1024.Idx → EReal)
      (ix2 (⟨t.val * 256 + p.val, by have := t_lt t; have := p.isLt; omega⟩ : Fin 8192) k) := by
  obtain ⟨e00, e01, -⟩ := idx_facts t
  unfold xblk iblk
  rw [View.read_apply]
  show V m c main_arg0 _ = _
  rw [V_main_arg0]
  congr 1
  funext a; apply Fin.ext
  match a with
  | ⟨0, _⟩ => show win0_0.index t (0 : Fin 2) * 256 + 1 * p.val = t.val * 256 + p.val; rw [e00]; omega
  | ⟨1, _⟩ => show win0_0.index t (1 : Fin 2) * 1024 + 1 * k.val = k.val; rw [e01]; omega

/-- Every point holds the whole weight matrix. -/
theorem wblk_ix2 (c : Dev nD) (t : Fin cfg0.N) (k : Fin 1024) (j : Fin 5242) :
    wblk m c t (ix2 k j) = wArr m c (ix2 k j) := by
  obtain ⟨-, -, e10, e11, -⟩ := idx_facts t
  unfold wblk wArr iblk
  rw [View.read_apply]
  show V m c main_v33 _ = _
  congr 1
  funext a; apply Fin.ext
  match a with
  | ⟨0, _⟩ => show win0_1.index t (0 : Fin 2) * 1024 + 1 * k.val = k.val; rw [e10]; omega
  | ⟨1, _⟩ => show win0_1.index t (1 : Fin 2) * 5242 + 1 * j.val = j.val; rw [e11]; omega

/-- Every point holds the whole bias row. -/
theorem bblk_ix2 (c : Dev nD) (t : Fin cfg0.N) (j : Fin 5242) :
    bblk m c t (ix2 0 j) = (m ((c : Thread nD τ).loc main_arg5) : S1x5242.Idx → EReal) (ix2 0 j) := by
  obtain ⟨-, -, -, -, e20, e21, -⟩ := idx_facts t
  unfold bblk iblk
  rw [View.read_apply]
  show V m c main_arg5 _ = _
  rw [V_main_arg5]
  congr 1
  funext a; apply Fin.ext
  match a with
  | ⟨0, _⟩ => show win0_2.index t (0 : Fin 2) * 1 + 1 * 0 = 0; rw [e20]
  | ⟨1, _⟩ => show win0_2.index t (1 : Fin 2) * 5242 + 1 * j.val = j.val; rw [e21]; omega

/-- Every point holds the scale row, whose entry `j` is `gamma j`. -/
theorem gblk_ix2 (c : Dev nD) (t : Fin cfg0.N) (j : Fin 5242) :
    gblk m c t (ix2 0 j) = (m ((c : Thread nD τ).loc main_arg6) : S5242.Idx → EReal) (ix1 j) := by
  obtain ⟨-, -, -, -, -, -, e30, e31, -⟩ := idx_facts t
  unfold gblk iblk
  rw [View.read_apply]
  show V m c main_v34 _ = _
  rw [gamma_row]
  refine Eq.trans (congrArg _ ?_) (shapeCast_a_1a_apply _ shapeCasts_S5242_S1x5242 (0 : Fin 1) j)
  funext a; apply Fin.ext
  match a with
  | ⟨0, _⟩ => show win0_3.index t (0 : Fin 2) * 1 + 1 * 0 = 0; rw [e30]
  | ⟨1, _⟩ => show win0_3.index t (1 : Fin 2) * 5242 + 1 * j.val = j.val; rw [e31]; omega

/-- Every point holds the shift row, whose entry `j` is `beta j`. -/
theorem hblk_ix2 (c : Dev nD) (t : Fin cfg0.N) (j : Fin 5242) :
    hblk m c t (ix2 0 j) = (m ((c : Thread nD τ).loc main_arg7) : S5242.Idx → EReal) (ix1 j) := by
  obtain ⟨-, -, -, -, -, -, -, -, e40, e41, -⟩ := idx_facts t
  unfold hblk iblk
  rw [View.read_apply]
  show V m c main_v35 _ = _
  rw [beta_row]
  refine Eq.trans (congrArg _ ?_) (shapeCast_a_1a_apply _ shapeCasts_S5242_S1x5242 (0 : Fin 1) j)
  funext a; apply Fin.ext
  match a with
  | ⟨0, _⟩ => show win0_4.index t (0 : Fin 2) * 1 + 1 * 0 = 0; rw [e40]
  | ⟨1, _⟩ => show win0_4.index t (1 : Fin 2) * 5242 + 1 * j.val = j.val; rw [e41]; omega

/-! ## From the blocks to the array -/

/-- What the result array ends holding: the specification at the kernel's own arrays. -/
def resK (c : Dev nD) : S8192x5242.Idx → EReal :=
  G (m ((c : Thread nD τ).loc main_arg0)) (wArr m c) (m ((c : Thread nD τ).loc main_arg5))
    (m ((c : Thread nD τ).loc main_arg6)) (m ((c : Thread nD τ).loc main_arg7))

/-- What point `t` writes back is block `t` of `resK`. -/
theorem flushed_eq (c : Dev nD) (t : Fin cfg0.N) :
    (dats m 0 c).flushed 5 t = ((cfg0.win 5).blk t).view.read (Elt Ideal) (resK m c) := by
  obtain ⟨-, -, -, -, -, -, -, -, -, -, e50, e51⟩ := idx_facts t
  show (cfg0.win 5).cut (grid0.coords t) ((dats m 0 c).after 5 t) = _
  rw [after0_5]
  unfold out0_5
  rw [View.canon_unit_zero hz]
  simp only [View.ld_unit_zero (S := S256x1024) hz, View.ld_unit_zero (S := S1024x5242) hz, View.ld_unit_zero (S := S1x5242) hz]
  funext y
  obtain ⟨p, q, rfl⟩ : ∃ (p : Fin 256) (q : Fin 5242), y = ix2 p q := ⟨y 0, y 1, eq_ix2 y⟩
  refine (pay_ix2 (xblk m c t) (wblk m c t) (bblk m c t) (gblk m c t) (hblk m c t) p q).trans ?_
  rw [View.read_apply]
  have he : ((cfg0.win 5).blk t).view.emb (ix2 p q)
      = ix2 (⟨t.val * 256 + p.val, by have := t_lt t; have := p.isLt; omega⟩ : Fin 8192) q := by
    funext a; apply Fin.ext
    match a with
    | ⟨0, _⟩ => show win0_5.index t (0 : Fin 2) * 256 + 1 * p.val = t.val * 256 + p.val; rw [e50]; omega
    | ⟨1, _⟩ => show win0_5.index t (1 : Fin 2) * 5242 + 1 * q.val = q.val; rw [e51]; omega
  rw [he]
  unfold resK
  rw [G_ix2]
  simp only [xblk_ix2, wblk_ix2, bblk_ix2, gblk_ix2, hblk_ix2]
  rfl

/-- An index is in point `t`'s block iff each coordinate is in the block's range on its axis. -/
theorem mem_blk (t : Fin cfg0.N) (i : S8192x5242.Idx) :
    i ∈ ((cfg0.win 5).blk t).view.set ↔ ∀ a : Fin 2, win0_5.index t a * S256x5242.size a ≤ (i a).val
      ∧ (i a).val < win0_5.index t a * S256x5242.size a + S256x5242.size a := by
  show i ∈ ((View.whole main_v36).slice (win0_5.rect t)).set ↔ _
  rw [View.set_slice_whole, Rect.mem_set_unit]
  exact Iff.rfl

/-- Row `r` lies in the block of point `r / 256`. -/
theorem cover (i : S8192x5242.Idx) : ∃ t : Fin cfg0.N, (cfg0.win 5).flush t = true ∧ i ∈ ((cfg0.win 5).blk t).view.set := by
  have hi0 : (i 0).val < 8192 := (i 0).isLt
  have hi1 : (i 1).val < 5242 := (i 1).isLt
  have hN : cfg0.N = 32 := N_0
  let t : Fin cfg0.N := ⟨(i 0).val / 256, by rw [hN]; omega⟩
  have htv : t.val = (i 0).val / 256 := rfl
  obtain ⟨-, -, -, -, -, -, -, -, -, -, e50, e51⟩ := idx_facts t
  refine ⟨t, flush0_5 t, ?_⟩
  rw [mem_blk]
  intro a
  match a with
  | ⟨0, _⟩ =>
    show win0_5.index t (0 : Fin 2) * 256 ≤ (i 0).val ∧ (i 0).val < win0_5.index t (0 : Fin 2) * 256 + 256
    rw [e50, htv]; omega
  | ⟨1, _⟩ =>
    show win0_5.index t (1 : Fin 2) * 5242 ≤ (i 1).val ∧ (i 1).val < win0_5.index t (1 : Fin 2) * 5242 + 5242
    rw [e51]; omega

/-- The result array after the run. -/
theorem final (c : Dev nD) : (dats m 0 c).arrAt 5 cfg0.N = resK m c :=
  (dats m 0 c).arrAt_eq_of_cover 5 (resK m c) (fun t _ => flushed_eq m c t) cover

/-- The run, read: the result array at the specification of the kernel's own arrays, the arguments unchanged. -/
theorem run : θ_run defs (onTc (τ := τ) (main (F := Ideal))) ⟨m, fun _ => 0, ρ⟩ (fun r => ∀ c : Dev nD,
      r.2.mem ((c.tc : Thread nD τ).loc main_v36) = resK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c).1.trans (final m c), (h c).2⟩) (run_out m ρ)

end Cert.KernelIdeal.Val

end
-- ==== Proof.Consts.lean ====
import Idealize.ShloMosaic.PureOps.Ideal

/-!
The one float word whose value the proof needs as a number: the reference divides each row sum by the word
`0x45A3D000`, which is the real number 5242 (5242 = 1.2797851… · 2¹², exactly representable).
-/

noncomputable section

namespace Cert.Consts

open Idealize.ShloMosaic

/-- The word `0x45A3D000` denotes the real `5242`. -/
theorem ofBits_5242 : Ideal.ofBits .f32 0x45A3D000#32 = ((5242 : ℝ) : EReal) := by
  simp [Ideal.ofBits, Ideal.ieee, -EReal.coe_mul]; norm_num

end Cert.Consts

end
-- ==== Proof.RefValue.lean ====
import proofs.«401905_j89051851915584_3_alg».proof.Proof.Gen.ReferenceIdeal.Read
import proofs.«401905_j89051851915584_3_alg».proof.Proof.Spec
import proofs.«401905_j89051851915584_3_alg».proof.Proof.Consts

/-!
# The reference computes the specification

Read one host operation at a time at an index, the reference's result is `Spec.G` of `x`, the weight matrix it
builds, the bias row and the scale and shift vectors. The steps follow the program: the affine row (a dot over the
1024 columns plus the broadcast bias), its mean (the row sum over 5242 columns divided by the word for 5242.0,
which on the extended reals is the product with 1/5242), the centred row, the mean of its squares, and the
final scale and shift. The weight matrix is carried as one term and never opened.
-/

noncomputable section

namespace Cert.ReferenceIdeal.RefValue

open Cert.ReferenceIdeal Cert.ReferenceIdeal.Read Idealize.ShloMosaic Idealize.ShloMosaic.ValueIdx Cert.Spec

variable (x0 : (⟨S8192x1024, .f32⟩ : BufTy).Contents (Elt Ideal)) (x1 : (⟨S7x256, .f32⟩ : BufTy).Contents (Elt Ideal)) (x2 : (⟨S72x256, .f32⟩ : BufTy).Contents (Elt Ideal))
  (x3 : (⟨S260x256, .f32⟩ : BufTy).Contents (Elt Ideal)) (x4 : (⟨S5242x256, .f32⟩ : BufTy).Contents (Elt Ideal)) (x5 : (⟨S1x5242, .f32⟩ : BufTy).Contents (Elt Ideal))
  (x6 x7 : (⟨S5242, .f32⟩ : BufTy).Contents (Elt Ideal)) (x8 x9 x10 x11 : (⟨S5242, .i32⟩ : BufTy).Contents (Elt Ideal))

/-- The weight matrix as the reference builds it: the four gathered pieces side by side, transposed. -/
abbrev wt : S1024x5242.Idx → EReal := val_main_v29 (F := Ideal) x1 x2 x3 x4 x8 x9 x10 x11

/-- `x · wt + bias` at row `r`, column `l`. -/
theorem affine_apply (r : Fin 8192) (l : Fin 5242) :
    val_main_v32 (F := Ideal) x0 x1 x2 x3 x4 x5 x8 x9 x10 x11 (ix2 r l) = affineRow x0 (wt x1 x2 x3 x4 x8 x9 x10 x11) x5 r l := by
  rw [val_main_v32_apply, val_main_v30_apply, val_main_v31_apply]
  have e1 : ∀ k : Fin 1024, lidx_main_v30 (ix2 r l) k = ix2 r k := fun k => funext fun a => Fin.ext (by match a with | ⟨0, _⟩ => rfl | ⟨1, _⟩ => rfl)
  have e2 : ∀ k : Fin 1024, ridx_main_v30 (ix2 r l) k = ix2 k l := fun k => funext fun a => Fin.ext (by match a with | ⟨0, _⟩ => rfl | ⟨1, _⟩ => rfl)
  have e3 : idx_main_v31 (ix2 r l) = ix2 0 l := funext fun a => Fin.ext (by match a with | ⟨0, _⟩ => rfl | ⟨1, _⟩ => rfl)
  simp only [e1, e2, e3]
  rfl

/-- The row sum divided by 5242 is the row's mean. -/
theorem mean_apply (r : Fin 8192) :
    val_main_v36 (F := Ideal) x0 x1 x2 x3 x4 x5 x8 x9 x10 x11 (ix2 r 0) = mean (affineRow x0 (wt x1 x2 x3 x4 x8 x9 x10 x11) x5 r) := by
  rw [val_main_v36_apply, val_main_v34_apply, val_main_v33_apply, val_main_v35_apply, val_main_cst_7_apply, val_main_cst_apply]
  have e1 : ∀ k : Fin 5242, idx_main_v33 (idx_main_v34 (ix2 r 0)) k = ix2 r k := fun k => funext fun a => Fin.ext (by match a with | ⟨0, _⟩ => rfl | ⟨1, _⟩ => rfl)
  simp only [e1, affine_apply, Ideal.hostDivf_def, Ideal.ofBits_def, Ideal.ofBits_zero_f32, zero_add, Cert.Consts.ofBits_5242,
    Ideal.div_coe (by norm_num : (5242 : ℝ) ≠ 0)]
  rfl

/-- The centred row (the program subtracts the broadcast mean twice, once for the variance and once for the result). -/
theorem centred_apply (r : Fin 8192) (l : Fin 5242) :
    val_main_v38 (F := Ideal) x0 x1 x2 x3 x4 x5 x8 x9 x10 x11 (ix2 r l)
      = affineRow x0 (wt x1 x2 x3 x4 x8 x9 x10 x11) x5 r l - mean (affineRow x0 (wt x1 x2 x3 x4 x8 x9 x10 x11) x5 r) := by
  rw [val_main_v38_apply, val_main_v37_apply, affine_apply]
  have e : idx_main_v37 (ix2 r l) = ix2 r 0 := funext fun a => Fin.ext (by match a with | ⟨0, _⟩ => rfl | ⟨1, _⟩ => rfl)
  rw [e, mean_apply]
  rfl

theorem centred_apply' (r : Fin 8192) (l : Fin 5242) :
    val_main_v45 (F := Ideal) x0 x1 x2 x3 x4 x5 x8 x9 x10 x11 (ix2 r l)
      = affineRow x0 (wt x1 x2 x3 x4 x8 x9 x10 x11) x5 r l - mean (affineRow x0 (wt x1 x2 x3 x4 x8 x9 x10 x11) x5 r) := by
  rw [val_main_v45_apply, val_main_v44_apply, affine_apply]
  have e : idx_main_v44 (ix2 r l) = ix2 r 0 := funext fun a => Fin.ext (by match a with | ⟨0, _⟩ => rfl | ⟨1, _⟩ => rfl)
  rw [e, mean_apply]
  rfl

/-- The mean of the squared centred row. -/
theorem var_apply (r : Fin 8192) :
    val_main_v43 (F := Ideal) x0 x1 x2 x3 x4 x5 x8 x9 x10 x11 (ix2 r 0)
      = mean (fun l => (affineRow x0 (wt x1 x2 x3 x4 x8 x9 x10 x11) x5 r l - mean (affineRow x0 (wt x1 x2 x3 x4 x8 x9 x10 x11) x5 r))
          * (affineRow x0 (wt x1 x2 x3 x4 x8 x9 x10 x11) x5 r l - mean (affineRow x0 (wt x1 x2 x3 x4 x8 x9 x10 x11) x5 r))) := by
  rw [val_main_v43_apply, val_main_v41_apply, val_main_v40_apply, val_main_v42_apply, val_main_cst_9_apply, val_main_cst_8_apply]
  have e1 : ∀ k : Fin 5242, idx_main_v40 (idx_main_v41 (ix2 r 0)) k = ix2 r k := fun k => funext fun a => Fin.ext (by match a with | ⟨0, _⟩ => rfl | ⟨1, _⟩ => rfl)
  simp only [e1, val_main_v39_apply, centred_apply, Ideal.mulf_def, Ideal.hostDivf_def, Ideal.ofBits_def, Ideal.ofBits_zero_f32, zero_add,
    Cert.Consts.ofBits_5242, Ideal.div_coe (by norm_num : (5242 : ℝ) ≠ 0)]
  rfl

/-- The reference's result is the specification of its arguments and its weight matrix. -/
theorem result_eq :
    val_main_v56 (F := Ideal) x0 x1 x2 x3 x4 x5 x6 x7 x8 x9 x10 x11 = G x0 (wt x1 x2 x3 x4 x8 x9 x10 x11) x5 x6 x7 := by
  funext i
  obtain ⟨r, j, rfl⟩ : ∃ (r : Fin 8192) (j : Fin 5242), i = ix2 r j := ⟨i 0, i 1, eq_ix2 i⟩
  rw [G_ix2, val_main_v56_apply, val_main_v53_apply, val_main_v50_apply, val_main_v55_apply, val_main_v54_apply, val_main_v52_apply,
    val_main_v51_apply, val_main_v49_apply, val_main_v48_apply, val_main_v47_apply, val_main_v46_apply, val_main_cst_10_apply]
  have e49 : idx_main_v49 (ix2 r j) = ix2 r 0 := funext fun a => Fin.ext (by match a with | ⟨0, _⟩ => rfl | ⟨1, _⟩ => rfl)
  have e52 : idx_main_v51 (idx_main_v52 (ix2 r j)) = ix1 j := funext fun a => Fin.ext (by match a with | ⟨0, _⟩ => rfl)
  have e55 : idx_main_v54 (idx_main_v55 (ix2 r j)) = ix1 j := funext fun a => Fin.ext (by match a with | ⟨0, _⟩ => rfl)
  rw [e49, e52, e55, centred_apply', var_apply]
  rfl

end Cert.ReferenceIdeal.RefValue

end
-- ==== Proof.Weight.lean ====
import proofs.«401905_j89051851915584_3_alg».proof.Proof.FrameIdeal
import proofs.«401905_j89051851915584_3_alg».proof.Proof.Gen.ReferenceIdeal.Read
import Idealize.ShloMosaic.Lib.StableHlo.Run

/-!
# One weight matrix

Both programs build the 1024 × 5242 weight matrix by the same host operations: each table read at its
sign-wrapped row indices (a negative index has the table's row count added), the four 5242 × 256 pieces joined
along the columns, the join transposed. The kernel's program first narrows each table to half precision, which on
the extended reals changes nothing, and an array's element format is not part of its extended-real contents. So
the array the kernel's region finds in the weight buffer is the reference's weight term of the same arguments.
-/

set_option maxRecDepth 16384

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)

set_option maxHeartbeats 4000000 in
/-- The weight buffer at the region's entry, as the host operations' term of the arguments. -/
theorem weight_term (c : Dev Cert.KernelIdeal.nD) :
    (Cert.KernelIdeal.Hand.V m c Cert.KernelIdeal.main_v33 : Cert.KernelIdeal.S1024x5242.Idx → EReal)
      = Cert.ReferenceIdeal.Read.val_main_v29 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
          (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) := by
  dsimp only [Cert.KernelIdeal.Hand.V, Cert.KernelIdeal.Gen.hostOps0]
  after_results
  rfl

end Cert.Bridge

end
-- ==== Proof.lean ====
/- The kernel multiplies a batch `x` (8192 × 1024) by a weight matrix gathered from four small tables, adds a
   bias row and applies layer norm over the 5242 columns, in 32 row blocks; the reference does the same on the host.
   On the extended reals both results are ONE function of the arguments (`Cert.Spec.G`): the kernel's block product
   into a zero accumulator and the host's dot are the same sum, the two row means agree because the kernel's folded
   reciprocal is NAMED 1/5242 and the host's quotient by 5242 is the product with 1/5242 on every extended real, and
   the weight matrix is built by the same host operations on both sides.
   The frames: the kernel's two programs run their 44 host operations and then the grid, whose body's one store
   covers its output block (Proof/FrameBits.lean, Proof/FrameIdeal.lean); the reference's frame is its run with the
   result dropped. `preserves` is the named constant's statement at its two sites. -/
import proofs.«401905_j89051851915584_3_alg».proof.Defs
import proofs.«401905_j89051851915584_3_alg».proof.Proof.Gen.Kernel
import proofs.«401905_j89051851915584_3_alg».proof.Proof.Gen.KernelIdeal
import proofs.«401905_j89051851915584_3_alg».proof.Proof.Gen.ReferenceIdeal
import proofs.«401905_j89051851915584_3_alg».proof.Proof.Gen.Pre_finite_inputs
import proofs.«401905_j89051851915584_3_alg».proof.Proof.Gen.ReferenceIdeal.Run
import proofs.«401905_j89051851915584_3_alg».proof.Proof.FrameBits
import proofs.«401905_j89051851915584_3_alg».proof.Proof.KernelValue
import proofs.«401905_j89051851915584_3_alg».proof.Proof.RefValue
import proofs.«401905_j89051851915584_3_alg».proof.Proof.Weight
import Idealize.ShloMosaic.PureOps.IdealRules
import Idealize.ShloMosaic.Adequacy
import Idealize.ShloMosaic.Init

noncomputable section

namespace Cert.Proof

open Idealize.ShloMosaic Idealize.SL.Sem

/-- The word-level kernel runs to the end and leaves its twelve arguments as launched. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ledger's two entries: at both sites the table gives `"inv_n"` the value 1/5242. -/
theorem preserves : Cert.preserves_Kernel_KernelIdeal :=
  ⟨IdealRules.named_const.statement Cert.KernelIdeal.κ "inv_n" .f32 0x39480898#32 ((1 / 5242 : ℝ) : EReal) rfl,
   IdealRules.named_const.statement Cert.KernelIdeal.κ "inv_n" .f32 0x39480898#32 ((1 / 5242 : ℝ) : EReal) rfl⟩

/-- From memories agreeing on the arguments the idealized kernel's result array ends at the specification of its
    arguments and the weight matrix its region finds, and the reference's result at the specification of its
    arguments and the weight matrix it builds: one array, since the two weight matrices are one term. -/
theorem algebraic : Cert.algebraic_KernelIdeal_ReferenceIdeal := by
  intro m ρ m' ρ' _ hagree
  refine ⟨fun c => Cert.KernelIdeal.Val.resK m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  rw [Cert.ReferenceIdeal.Read.val_main_v56_eq, a0, a1, a2, a3, a4, a5, a6, a7, a8, a9, a10, a11, Cert.ReferenceIdeal.RefValue.result_eq]
  exact congrArg (fun w => Cert.Spec.G _ w _ _ _) (Cert.Bridge.weight_term m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
